-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S1024x4096 : Shape := ⟨2, ![1024, 4096]⟩
abbrev S256x1024 : Shape := ⟨2, ![256, 1024]⟩
abbrev S256x4096 : Shape := ⟨2, ![256, 4096]⟩

abbrev nBuf : Space → Nat
  | .hbm => 31
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S4096x1024, .f32⟩
  | .hbm, ⟨30, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  transposes_S4096x1024_S1024x4096_1_0 : S4096x1024.Transposes [1, 0] S1024x4096
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S256x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S4096x4096, .f32⟩
  | .hbm, ⟨25, _⟩ => ⟨S1024x4096, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelEntry.lean ====
/-
  The LSTM step's one pallas_call, seen from @main: what the region finds when it is entered.

  @main first builds the kernel's three resident operands on the host — the four input-to-gate weight
  matrices stacked along the gate axis, transposed and narrowed (`main_v7`), the four hidden-to-gate
  matrices likewise (`main_v9`), and the two stacked bias vectors added and laid out as one row
  (`main_v5`) — by ten operations that write ten buffers of their own and none of @main's nineteen
  arguments. So the region finds every argument as launched (`V_kept`), its eight windows' arrays at
  the host prefix's fold `V`, and an input window's staging buffer holds, at every grid point, the
  block of its array that the window's index map names there, whether the point fetched it or not
  (`before_in`): the three batch-tiled operands move to a new block at every point, the three resident
  ones are fetched once and their index never moves.
-/
import proofs.«121273_j35725537968252_1_alg».proof.Proof.Gen.Kernel.Launch
import proofs.«121273_j35725537968252_1_alg».proof.Proof.Gen.Kernel.Skeleton
import proofs.«121273_j35725537968252_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch memory after the ten host operations. -/
abbrev V (c : Dev nD) (b : Ref sig .tc) : Buf (Elt F) ((c : Thread nD τ).loc b) :=
  StableHlo.after (List.flatten [hostOps0]) (fun b => m (c, b)) b

/-- None of the ten allocates. -/
theorem hostOps0_fresh : (hostOps0 : List (HloOp τ sig (Elt F))).Forall fun op => op.fresh = ∅ := by
  simp only [List.Forall]; repeat' constructor

/-- @main is its host stretch followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- A buffer that is none of the ten the host stretch writes is found as launched. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) : V m c b = m ((c : Thread nD τ).loc b) := by
  obtain ⟨h0, h1, h2, h3, h4, h5, h6, h7, h8, h9⟩ := hb
  exact StableHlo.after_of_forall_not_mem (b := Proc.devRef .tc b) _ _ (List.forall_iff_forall_mem.mp (by
    simp only [hostOps0, List.flatten_cons, List.flatten_nil, List.append_nil, List.Forall, StableHlo.nary_writes,
      StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: no input window is cut or
    idle, and where a point does not fetch, the window's index has not moved since the point that did. One statement per
    input window, each at its own literal block shape. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Region

end
-- ==== Proof.KernelBody.lean ====
/-
  The LSTM step's one pallas_call: its body at a grid point, and the whole run of @main.

  At each of the sixteen grid points the body reads three batch tiles (256 rows of the input, of the previous
  hidden state and of the previous cell state), the two resident weight operands and the bias row, each whole
  through one rectangle, and writes each of its two output tiles whole by one store: the new hidden tile is the
  skeleton's third payload of the six loaded values, the new cell tile its second. So after the body an output's
  staging buffer is the canon of that one covering store, the inputs' buffers are as they were, and the pipeline
  library's frame run applies: every weakly fair execution of @main ends, each output array holding what the
  library assembles from the tiles written back and every other buffer what the region found.
-/
import proofs.«121273_j35725537968252_1_alg».proof.Proof.KernelEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rTile : Rect S256x1024 := Rect.unit (s := S256x1024) ![0, 0] S256x1024.size inb_S256x1024_S256x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output window's buffer -/

/-- The new hidden tile (window 6) from the six input blocks: one store, the skeleton's third payload. -/
def outH (x0 x1 x2 : Vec F S256x1024 .f32) (x3 x4 : Vec F S1024x4096 .bf16) (x5 : Vec F S1x4096 .f32) : Vec F S256x1024 .f32 :=
  View.canon [⟨rTile, k0_pay3 (View.ld x0 rTile) (View.ld x1 rTile) (View.ld x3 rWeight) (View.ld x4 rWeight) (View.ld x5 rBias) (View.ld x2 rTile)⟩]

/-- The new cell tile (window 7): one store, the skeleton's second payload. -/
def outC (x0 x1 x2 : Vec F S256x1024 .f32) (x3 x4 : Vec F S1024x4096 .bf16) (x5 : Vec F S1x4096 .f32) : Vec F S256x1024 .f32 :=
  View.canon [⟨rTile, k0_pay2 (View.ld x0 rTile) (View.ld x1 rTile) (View.ld x3 rWeight) (View.ld x4 rWeight) (View.ld x5 rBias) (View.ld x2 rTile)⟩]

/-- One store through the whole-tile rectangle covers the tile. -/
theorem coverTile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The kernel body on whole staging memrefs, the inputs' at contents `x0 … x5` and the outputs' at anything, runs to
    the continuation holding the inputs' as they were and the outputs' at `outH`, `outC` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data of the one pipeline on core `c`: the arrays as the region finds them; after the body at point
    `t` each input's buffer at its block and each output's at its tile of the six input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = outC (iblk m c 0 t) (iblk m c 1 t) (iblk m c 2 t) (iblk m c 3 t) (iblk m c 4 t) (iblk m c 5 t) := by dsimp only [dats]

/-- Each input's current staging buffer holds its block at every point. -/
theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d
theorem before0_4 (c : Dev nD) (t : Fin cfg0.N) (d) : (dats m 0 c).before 4 t d = iblk m c 4 t :=
  before_in4 m (dats m 0 c) (A_eq m c 4) (after0_4 m c) t d
theorem before0_5 (c : Dev nD) (t : Fin cfg0.N) (d) : (dats m 0 c).before 5 t d = iblk m c 5 t :=
  before_in5 m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, each window's array at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arguments are unchanged -/

/-- An argument that a window stages (the three batch-tiled inputs) ends at its launch contents. -/
theorem kept_staged {r : PUnit × MemSt nD τ sig (Elt F)} (h : Pipeline.FramePost cfgs (dats m) 0 (V m) r) (c : Dev nD)
    (w : Fin cfg0.W) (hw : (cfg0.win w).isOut = false)
    (hb : Pipeline.arrRef spec0 w ≠ main_v0 ∧ Pipeline.arrRef spec0 w ≠ main_v1 ∧ Pipeline.arrRef spec0 w ≠ main_v2
      ∧ Pipeline.arrRef spec0 w ≠ main_v3 ∧ Pipeline.arrRef spec0 w ≠ main_v4 ∧ Pipeline.arrRef spec0 w ≠ main_v5
      ∧ Pipeline.arrRef spec0 w ≠ main_v6 ∧ Pipeline.arrRef spec0 w ≠ main_v7 ∧ Pipeline.arrRef spec0 w ≠ main_v8
      ∧ Pipeline.arrRef spec0 w ≠ main_v9) :
    r.2.mem (((cfgs 0).spec w).arr.view.loc (c.tc : Thread nD τ)) = m ((c : Thread nD τ).loc (Pipeline.arrRef spec0 w)) :=
  ((h c).1 w).trans (((dats m 0 c).arrAt_in w hw _).trans ((A_eq m c w).trans (V_kept m c _ hb)))

/-- An argument no window stages (the sixteen weights and biases) ends at its launch contents. -/
theorem kept_rest {r : PUnit × MemSt nD τ sig (Elt F)} (h : Pipeline.FramePost cfgs (dats m) 0 (V m) r) (c : Dev nD)
    (b : Ref sig .tc) (hs : b.isScoped = false) (hw : ∀ w, Pipeline.arrRef spec0 w ≠ b)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    r.2.mem ((c.tc : Thread nD τ).loc b) = m ((c : Thread nD τ).loc b) :=
  ((h c).2 b (Pipeline.mem_restRefs_of b hs hw)).trans (V_kept m c b hb)

/-- The frame, at any float instance: every weakly fair execution of @main terminates without a fault, and each of
    the nineteen argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨kept_staged m h c 0 rfl (by decide),
      kept_staged m h c 1 rfl (by decide),
      kept_staged m h c 2 rfl (by decide),
      kept_rest m h c main_arg3 rfl (by decide) (by decide),
      kept_rest m h c main_arg4 rfl (by decide) (by decide),
      kept_rest m h c main_arg5 rfl (by decide) (by decide),
      kept_rest m h c main_arg6 rfl (by decide) (by decide),
      kept_rest m h c main_arg7 rfl (by decide) (by decide),
      kept_rest m h c main_arg8 rfl (by decide) (by decide),
      kept_rest m h c main_arg9 rfl (by decide) (by decide),
      kept_rest m h c main_arg10 rfl (by decide) (by decide),
      kept_rest m h c main_arg11 rfl (by decide) (by decide),
      kept_rest m h c main_arg12 rfl (by decide) (by decide),
      kept_rest m h c main_arg13 rfl (by decide) (by decide),
      kept_rest m h c main_arg14 rfl (by decide) (by decide),
      kept_rest m h c main_arg15 rfl (by decide) (by decide),
      kept_rest m h c main_arg16 rfl (by decide) (by decide),
      kept_rest m h c main_arg17 rfl (by decide) (by decide),
      kept_rest m h c main_arg18 rfl (by decide) (by decide)⟩)
    (run_main m ρ)

end Cert.Kernel.Region

end
-- ==== Proof.KernelIdealEntry.lean ====
/-
  The LSTM step's one pallas_call, seen from @main: what the region finds when it is entered.

  @main first builds the kernel's three resident operands on the host — the four input-to-gate weight
  matrices stacked along the gate axis, transposed and narrowed (`main_v7`), the four hidden-to-gate
  matrices likewise (`main_v9`), and the two stacked bias vectors added and laid out as one row
  (`main_v5`) — by ten operations that write ten buffers of their own and none of @main's nineteen
  arguments. So the region finds every argument as launched (`V_kept`), its eight windows' arrays at
  the host prefix's fold `V`, and an input window's staging buffer holds, at every grid point, the
  block of its array that the window's index map names there, whether the point fetched it or not
  (`before_in`): the three batch-tiled operands move to a new block at every point, the three resident
  ones are fetched once and their index never moves.
-/
import proofs.«121273_j35725537968252_1_alg».proof.Proof.Gen.KernelIdeal.Launch
import proofs.«121273_j35725537968252_1_alg».proof.Proof.Gen.KernelIdeal.Skeleton
import proofs.«121273_j35725537968252_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## @main up to the region -/

/-- Core `c`'s buffers when the region is entered: the launch memory after the ten host operations. -/
abbrev V (c : Dev nD) (b : Ref sig .tc) : Buf (Elt F) ((c : Thread nD τ).loc b) :=
  StableHlo.after (List.flatten [hostOps0]) (fun b => m (c, b)) b

/-- None of the ten allocates. -/
theorem hostOps0_fresh : (hostOps0 : List (HloOp τ sig (Elt F))).Forall fun op => op.fresh = ∅ := by
  simp only [List.Forall]; repeat' constructor

/-- @main is its host stretch followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- A buffer that is none of the ten the host stretch writes is found as launched. -/
theorem V_kept (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) : V m c b = m ((c : Thread nD τ).loc b) := by
  obtain ⟨h0, h1, h2, h3, h4, h5, h6, h7, h8, h9⟩ := hb
  exact StableHlo.after_of_forall_not_mem (b := Proc.devRef .tc b) _ _ (List.forall_iff_forall_mem.mp (by
    simp only [hostOps0, List.flatten_cons, List.flatten_nil, List.append_nil, List.Forall, StableHlo.nary_writes,
      StableHlo.unary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof
    data whose array is the region-entry contents and whose body leaves the block in place: no input window is cut or
    idle, and where a point does not fetch, the window's index has not moved since the point that did. One statement per
    input window, each at its own literal block shape. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Region

end
-- ==== Proof.KernelIdealBody.lean ====
/-
  The LSTM step's one pallas_call: its body at a grid point, and the whole run of @main.

  At each of the sixteen grid points the body reads three batch tiles (256 rows of the input, of the previous
  hidden state and of the previous cell state), the two resident weight operands and the bias row, each whole
  through one rectangle, and writes each of its two output tiles whole by one store: the new hidden tile is the
  skeleton's third payload of the six loaded values, the new cell tile its second. So after the body an output's
  staging buffer is the canon of that one covering store, the inputs' buffers are as they were, and the pipeline
  library's frame run applies: every weakly fair execution of @main ends, each output array holding what the
  library assembles from the tiles written back and every other buffer what the region found.
-/
import proofs.«121273_j35725537968252_1_alg».proof.Proof.KernelIdealEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: each buffer whole -/

abbrev rTile : Rect S256x1024 := Rect.unit (s := S256x1024) ![0, 0] S256x1024.size inb_S256x1024_S256x1024_0_0
abbrev rWeight : Rect S1024x4096 := Rect.unit (s := S1024x4096) ![0, 0] S1024x4096.size inb_S1024x4096_S1024x4096_0_0
abbrev rBias : Rect S1x4096 := Rect.unit (s := S1x4096) ![0, 0] S1x4096.size inb_S1x4096_S1x4096_0_0

/-! ## What the body leaves in each output window's buffer -/

/-- The new hidden tile (window 6) from the six input blocks: one store, the skeleton's third payload. -/
def outH (x0 x1 x2 : Vec F S256x1024 .f32) (x3 x4 : Vec F S1024x4096 .bf16) (x5 : Vec F S1x4096 .f32) : Vec F S256x1024 .f32 :=
  View.canon [⟨rTile, k0_pay3 (View.ld x0 rTile) (View.ld x1 rTile) (View.ld x3 rWeight) (View.ld x4 rWeight) (View.ld x5 rBias) (View.ld x2 rTile)⟩]

/-- The new cell tile (window 7): one store, the skeleton's second payload. -/
def outC (x0 x1 x2 : Vec F S256x1024 .f32) (x3 x4 : Vec F S1024x4096 .bf16) (x5 : Vec F S1x4096 .f32) : Vec F S256x1024 .f32 :=
  View.canon [⟨rTile, k0_pay2 (View.ld x0 rTile) (View.ld x1 rTile) (View.ld x3 rWeight) (View.ld x4 rWeight) (View.ld x5 rBias) (View.ld x2 rTile)⟩]

/-- One store through the whole-tile rectangle covers the tile. -/
theorem coverTile (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The kernel body on whole staging memrefs, the inputs' at contents `x0 … x5` and the outputs' at anything, runs to
    the continuation holding the inputs' as they were and the outputs' at `outH`, `outC` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x4096 .bf16) (harg4 : arg4.IsWhole)
    (arg5 : Memref sig .tc .vmem S1024x4096 .bf16) (harg5 : arg5.IsWhole) (arg6 : Memref sig .tc .vmem S1x4096 .f32) (harg6 : arg6.IsWhole)
    (arg7 : Memref sig .tc .vmem S256x1024 .f32) (harg7 : arg7.IsWhole) (arg8 : Memref sig .tc .vmem S256x1024 .f32) (harg8 : arg8.IsWhole)
    (x0 x1 x2 : Vec F S256x1024 .f32) (x3 x4 : Vec F S1024x4096 .bf16) (x5 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outH x0 x1 x2 x3 x4 x5) ∗ owns (c : Thread nD τ) arg8 fullShare (outC x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (coverTile _)
  iexists _; isplitr
  swap; · iexact H7
  ipureintro
  exact View.read_writes_eq_canon _ _ _ (coverTile _)

/-! ## The pipeline's proof data -/

/-- The proof data of the one pipeline on core `c`: the arrays as the region finds them; after the body at point
    `t` each input's buffer at its block and each output's at its tile of the six input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outH (iblk m c 0 t) (iblk m c 1 t) (iblk m c 2 t) (iblk m c 3 t) (iblk m c 4 t) (iblk m c 5 t)
    | ⟨7, _⟩ => outC (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = outH (iblk m c 0 t) (iblk m c 1 t) (iblk m c 2 t) (iblk m c 3 t) (iblk m c 4 t) (iblk m c 5 t) := by dsimp only [dats]
theorem after0_7 (c : Dev nD) (t : Fin cfg0.N) : (dats m 0 c).after 7 t
    = outC (iblk m c 0 t) (iblk m c 1 t) (iblk m c 2 t) (iblk m c 3 t) (iblk m c 4 t) (iblk m c 5 t) := by dsimp only [dats]

/-- Each input's current staging buffer holds its block at every point. -/
theorem before0_0 (c : Dev nD) (t : Fin cfg0.N) (d) : (dats m 0 c).before 0 t d = iblk m c 0 t :=
  before_in0 m (dats m 0 c) (A_eq m c 0) (after0_0 m c) t d
theorem before0_1 (c : Dev nD) (t : Fin cfg0.N) (d) : (dats m 0 c).before 1 t d = iblk m c 1 t :=
  before_in1 m (dats m 0 c) (A_eq m c 1) (after0_1 m c) t d
theorem before0_2 (c : Dev nD) (t : Fin cfg0.N) (d) : (dats m 0 c).before 2 t d = iblk m c 2 t :=
  before_in2 m (dats m 0 c) (A_eq m c 2) (after0_2 m c) t d
theorem before0_3 (c : Dev nD) (t : Fin cfg0.N) (d) : (dats m 0 c).before 3 t d = iblk m c 3 t :=
  before_in3 m (dats m 0 c) (A_eq m c 3) (after0_3 m c) t d
theorem before0_4 (c : Dev nD) (t : Fin cfg0.N) (d) : (dats m 0 c).before 4 t d = iblk m c 4 t :=
  before_in4 m (dats m 0 c) (A_eq m c 4) (after0_4 m c) t d
theorem before0_5 (c : Dev nD) (t : Fin cfg0.N) (d) : (dats m 0 c).before 5 t d = iblk m c 5 t :=
  before_in5 m (dats m 0 c) (A_eq m c 5) (after0_5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every weakly fair execution of @main terminates, each window's array at what
    the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-! ## The arguments are unchanged -/

/-- An argument that a window stages (the three batch-tiled inputs) ends at its launch contents. -/
theorem kept_staged {r : PUnit × MemSt nD τ sig (Elt F)} (h : Pipeline.FramePost cfgs (dats m) 0 (V m) r) (c : Dev nD)
    (w : Fin cfg0.W) (hw : (cfg0.win w).isOut = false)
    (hb : Pipeline.arrRef spec0 w ≠ main_v0 ∧ Pipeline.arrRef spec0 w ≠ main_v1 ∧ Pipeline.arrRef spec0 w ≠ main_v2
      ∧ Pipeline.arrRef spec0 w ≠ main_v3 ∧ Pipeline.arrRef spec0 w ≠ main_v4 ∧ Pipeline.arrRef spec0 w ≠ main_v5
      ∧ Pipeline.arrRef spec0 w ≠ main_v6 ∧ Pipeline.arrRef spec0 w ≠ main_v7 ∧ Pipeline.arrRef spec0 w ≠ main_v8
      ∧ Pipeline.arrRef spec0 w ≠ main_v9) :
    r.2.mem (((cfgs 0).spec w).arr.view.loc (c.tc : Thread nD τ)) = m ((c : Thread nD τ).loc (Pipeline.arrRef spec0 w)) :=
  ((h c).1 w).trans (((dats m 0 c).arrAt_in w hw _).trans ((A_eq m c w).trans (V_kept m c _ hb)))

/-- An argument no window stages (the sixteen weights and biases) ends at its launch contents. -/
theorem kept_rest {r : PUnit × MemSt nD τ sig (Elt F)} (h : Pipeline.FramePost cfgs (dats m) 0 (V m) r) (c : Dev nD)
    (b : Ref sig .tc) (hs : b.isScoped = false) (hw : ∀ w, Pipeline.arrRef spec0 w ≠ b)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    r.2.mem ((c.tc : Thread nD τ).loc b) = m ((c : Thread nD τ).loc b) :=
  ((h c).2 b (Pipeline.mem_restRefs_of b hs hw)).trans (V_kept m c b hb)

/-- The frame, at any float instance: every weakly fair execution of @main terminates without a fault, and each of
    the nineteen argument arrays ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨kept_staged m h c 0 rfl (by decide),
      kept_staged m h c 1 rfl (by decide),
      kept_staged m h c 2 rfl (by decide),
      kept_rest m h c main_arg3 rfl (by decide) (by decide),
      kept_rest m h c main_arg4 rfl (by decide) (by decide),
      kept_rest m h c main_arg5 rfl (by decide) (by decide),
      kept_rest m h c main_arg6 rfl (by decide) (by decide),
      kept_rest m h c main_arg7 rfl (by decide) (by decide),
      kept_rest m h c main_arg8 rfl (by decide) (by decide),
      kept_rest m h c main_arg9 rfl (by decide) (by decide),
      kept_rest m h c main_arg10 rfl (by decide) (by decide),
      kept_rest m h c main_arg11 rfl (by decide) (by decide),
      kept_rest m h c main_arg12 rfl (by decide) (by decide),
      kept_rest m h c main_arg13 rfl (by decide) (by decide),
      kept_rest m h c main_arg14 rfl (by decide) (by decide),
      kept_rest m h c main_arg15 rfl (by decide) (by decide),
      kept_rest m h c main_arg16 rfl (by decide) (by decide),
      kept_rest m h c main_arg17 rfl (by decide) (by decide),
      kept_rest m h c main_arg18 rfl (by decide) (by decide)⟩)
    (run_main m ρ)

end Cert.KernelIdeal.Region

end
-- ==== Proof.KernelIdealHost.lean ====
/-
  What the region finds in the three operands that @main builds on the host.

  Stacking the four input-to-gate matrices along the gate axis gives `Wx` (4096 gate units by 1024 features), and the
  weight operand the kernel multiplies by is its transpose narrowed to sixteen bits — at an index `(k, n)`, at the ideal
  instance where narrowing changes nothing, the stacked array's entry `(n, k)`. The same for the hidden-to-gate
  matrices. The bias operand is the sum of the two stacked bias vectors laid out as one row: at `(0, n)` the sum of the
  two stacked biases at `n`. The stacked arrays themselves are never opened.
-/
import proofs.«121273_j35725537968252_1_alg».proof.Proof.KernelIdealBody
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem

variable {F : FTy → Type} [FloatOps F]

variable (m : (ℓ : Loc nD τ sig) → Buf (Elt F) ℓ)

/-! ## The stacked arrays -/

/-- The four input-to-gate matrices stacked along the gate axis. -/
def stackWx (c : Dev nD) : FVec F S4096x1024 .f32 :=
  concatenate S4096x1024 0 [⟨S1024x1024, m ((c : Thread nD τ).loc main_arg3)⟩, ⟨S1024x1024, m ((c : Thread nD τ).loc main_arg7)⟩,
    ⟨S1024x1024, m ((c : Thread nD τ).loc main_arg11)⟩, ⟨S1024x1024, m ((c : Thread nD τ).loc main_arg15)⟩]
    concatenates_S1024x1024_S1024x1024_S1024x1024_S1024x1024_S4096x1024_d0

/-- The four hidden-to-gate matrices stacked along the gate axis. -/
def stackWh (c : Dev nD) : FVec F S4096x1024 .f32 :=
  concatenate S4096x1024 0 [⟨S1024x1024, m ((c : Thread nD τ).loc main_arg5)⟩, ⟨S1024x1024, m ((c : Thread nD τ).loc main_arg9)⟩,
    ⟨S1024x1024, m ((c : Thread nD τ).loc main_arg13)⟩, ⟨S1024x1024, m ((c : Thread nD τ).loc main_arg17)⟩]
    concatenates_S1024x1024_S1024x1024_S1024x1024_S1024x1024_S4096x1024_d0

/-- The four input-side biases stacked. -/
def stackBx (c : Dev nD) : FVec F S4096 .f32 :=
  concatenate S4096 0 [⟨S1024, m ((c : Thread nD τ).loc main_arg4)⟩, ⟨S1024, m ((c : Thread nD τ).loc main_arg8)⟩,
    ⟨S1024, m ((c : Thread nD τ).loc main_arg12)⟩, ⟨S1024, m ((c : Thread nD τ).loc main_arg16)⟩]
    concatenates_S1024_S1024_S1024_S1024_S4096_d0

/-- The four hidden-side biases stacked. -/
def stackBh (c : Dev nD) : FVec F S4096 .f32 :=
  concatenate S4096 0 [⟨S1024, m ((c : Thread nD τ).loc main_arg6)⟩, ⟨S1024, m ((c : Thread nD τ).loc main_arg10)⟩,
    ⟨S1024, m ((c : Thread nD τ).loc main_arg14)⟩, ⟨S1024, m ((c : Thread nD τ).loc main_arg18)⟩]
    concatenates_S1024_S1024_S1024_S1024_S4096_d0

/-! ## The host-built operands as the region finds them -/

theorem V_wx (c : Dev nD) : (V m c main_v7 : S1024x4096.Idx → Elt F .bf16)
    = truncf .bf16 (transpose S1024x4096 [1, 0] (stackWx m c) transposes_S4096x1024_S1024x4096_1_0) bitsLt_bf16_f32 := by
  dsimp only [V]
  simp only [hostOps0, List.flatten_cons, List.flatten_nil, List.append_nil]
  after_results
  rfl

theorem V_wh (c : Dev nD) : (V m c main_v9 : S1024x4096.Idx → Elt F .bf16)
    = truncf .bf16 (transpose S1024x4096 [1, 0] (stackWh m c) transposes_S4096x1024_S1024x4096_1_0) bitsLt_bf16_f32 := by
  dsimp only [V]
  simp only [hostOps0, List.flatten_cons, List.flatten_nil, List.append_nil]
  after_results
  rfl

theorem V_bias (c : Dev nD) : (V m c main_v5 : S1x4096.Idx → Elt F .f32)
    = shapeCast S1x4096 (addf (stackBx m c) (stackBh m c)) shapeCasts_S4096_S1x4096 := by
  dsimp only [V]
  simp only [hostOps0, List.flatten_cons, List.flatten_nil, List.append_nil]
  after_results
  rfl

/-! ## Read at an index, at the ideal instance -/

section Ideal

variable (mi : (ℓ : Loc nD τ sig) → Buf (Elt Ideal) ℓ)

/-- The input-side weight operand at `(k, n)` is the stacked array at `(n, k)`. -/
theorem wx_apply (c : Dev nD) (k : Fin 1024) (n : Fin 4096) :
    (V mi c main_v7 : S1024x4096.Idx → Elt Ideal .bf16) (ix2 k n) = stackWx mi c (ix2 n k) := by
  rw [V_wx]
  exact transpose_apply [1, 0] (stackWx mi c) transposes_S4096x1024_S1024x4096_1_0 (ix2 k n) (ix2 n k) (fun b => match b with
    | ⟨0, _⟩ => rfl
    | ⟨1, _⟩ => rfl)

/-- The hidden-side weight operand at `(k, n)` is the stacked array at `(n, k)`. -/
theorem wh_apply (c : Dev nD) (k : Fin 1024) (n : Fin 4096) :
    (V mi c main_v9 : S1024x4096.Idx → Elt Ideal .bf16) (ix2 k n) = stackWh mi c (ix2 n k) := by
  rw [V_wh]
  exact transpose_apply [1, 0] (stackWh mi c) transposes_S4096x1024_S1024x4096_1_0 (ix2 k n) (ix2 n k) (fun b => match b with
    | ⟨0, _⟩ => rfl
    | ⟨1, _⟩ => rfl)

/-- The bias row at `(0, n)` is the sum of the two stacked biases at `n`. -/
theorem bias_apply (c : Dev nD) (n : Fin 4096) :
    (V mi c main_v5 : S1x4096.Idx → Elt Ideal .f32) (ix2 0 n) = stackBx mi c (ix1 n) + stackBh mi c (ix1 n) := by
  rw [V_bias]
  refine (shapeCast_apply (addf (stackBx mi c) (stackBh mi c)) shapeCasts_S4096_S1x4096 (ix2 0 n) (ix1 n) ?_).trans rfl
  rw [Shape.rowMajor_val_two, Shape.rowMajor_val_one]
  show n.val = 0 * 4096 + n.val
  omega

end Ideal

end Cert.KernelIdeal.Region

end
-- ==== Proof.LstmSpec.lean ====
/-
  One LSTM step, as functions of the argument arrays on the extended reals.

  With `x`, `h`, `cp` the input, the previous hidden state and the previous cell state (4096 batch rows of 1024
  features), `Wx`, `Wh` the four input-to-gate and the four hidden-to-gate weight matrices stacked along the gate
  axis (4096 stacked gate units, each a row of 1024 weights) and `bx`, `bh` the stacked biases, the pre-activation
  of stacked gate unit `n` on batch row `b` is

      pre b n = (∑ₖ x[b,k]·Wx[n,k] + ∑ₖ h[b,k]·Wh[n,k]) + (bx[n] + bh[n]),

  the four gates of feature `q` are the units `q`, `1024+q`, `2048+q`, `3072+q` (input, forget, candidate, output), and

      cell b q   = σ(pre b (1024+q)) · cp[b,q] + σ(pre b q) · tanh(pre b (2048+q))
      hidden b q = σ(pre b (3072+q)) · tanh(cell b q).

  The bias enters `pre` as the ONE sum `bx[n] + bh[n]`; adding the two biases one after the other instead is the same
  number, addition of extended reals being associative (`pre_eq_seq`): no finiteness is needed anywhere.
-/
import Idealize.ShloMosaic.PureOps.Ideal
import Idealize.ShloMosaic.Lib.ValueIdx

noncomputable section

namespace Cert.LstmSpec

open Idealize.ShloMosaic Idealize.ShloMosaic.ValueIdx

/-- A batch-by-feature (or gate-unit-by-feature) array. -/
abbrev Mat : Type := (⟨2, ![4096, 1024]⟩ : Shape).Idx → EReal
/-- One entry per stacked gate unit. -/
abbrev GVec : Type := (⟨1, ![4096]⟩ : Shape).Idx → EReal

/-- The stacked gate unit of feature `q` in gate number `g` (0 input, 1 forget, 2 candidate, 3 output). -/
def unit (g : Fin 4) (q : Fin 1024) : Fin 4096 := ⟨1024 * g.val + q.val, by have := g.isLt; have := q.isLt; omega⟩

variable (x h cp Wx Wh : Mat) (bx bh : GVec)

/-- The two matrix products of a gate unit's pre-activation. -/
def dots (b n : Fin 4096) : EReal :=
  (∑ k : Fin 1024, x (ix2 b k) * Wx (ix2 n k)) + ∑ k : Fin 1024, h (ix2 b k) * Wh (ix2 n k)

/-- The pre-activation of stacked gate unit `n` on batch row `b`. -/
def pre (b n : Fin 4096) : EReal := dots x h Wx Wh b n + (bx (ix1 n) + bh (ix1 n))

/-- The two biases added one after the other give the same pre-activation. -/
theorem pre_eq_seq (b n : Fin 4096) : dots x h Wx Wh b n + bx (ix1 n) + bh (ix1 n) = pre x h Wx Wh bx bh b n :=
  add_assoc _ _ _

/-- The new cell state. -/
def cell (b : Fin 4096) (q : Fin 1024) : EReal :=
  Ideal.logistic (pre x h Wx Wh bx bh b (unit 1 q)) * cp (ix2 b q)
    + Ideal.logistic (pre x h Wx Wh bx bh b (unit 0 q)) * Ideal.tanh (pre x h Wx Wh bx bh b (unit 2 q))

/-- The new hidden state. -/
def hidden (b : Fin 4096) (q : Fin 1024) : EReal :=
  Ideal.logistic (pre x h Wx Wh bx bh b (unit 3 q)) * Ideal.tanh (cell x h cp Wx Wh bx bh b q)

/-- The new cell state as an array. -/
def cellArr : Mat := fun j => cell x h cp Wx Wh bx bh (j 0) (j 1)

/-- The new hidden state as an array. -/
def hiddenArr : Mat := fun j => hidden x h cp Wx Wh bx bh (j 0) (j 1)

/-- The logistic function is its expansion `1 / (1 + e^(-y))` with the extended reals' quotient. -/
theorem logistic_eq (one : EReal) (hone : one = 1) (y : EReal) : Ideal.div one (one + Ideal.exp (-y)) = Ideal.logistic y := by
  subst hone; rfl

end Cert.LstmSpec

end
-- ==== Proof.KernelIdealTile.lean ====
/-
  The body's arithmetic at one entry of a batch tile.

  The body's three payloads are read here at an entry `(p, ·)` of the tile, over any six loaded blocks of which it
  is only known where their entries come from: row `p` of each batch-tiled block is row `b p` of its array, the weight
  blocks at `(k, n)` are the stacked weights at `(n, k)`, the bias block at `(0, n)` the two stacked biases' sum at `n`.
  Each matrix product into a zero accumulator is the plain sum over the 1024 contracted features; narrowing to sixteen
  bits is the identity on the extended reals; the bias row is repeated down the 256 rows; the four column slices at
  offsets 0, 1024, 2048, 3072 pick the four gates' units of a feature. So the first payload is the specification's
  pre-activation, the second its new cell state and the third its new hidden state, at batch row `b p`.
-/
import proofs.«121273_j35725537968252_1_alg».proof.Proof.Gen.KernelIdeal.Skeleton
import proofs.«121273_j35725537968252_1_alg».proof.Proof.LstmSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Tile

open Cert.KernelIdeal Cert.KernelIdeal.Gen Cert.LstmSpec
open Idealize.ShloMosaic Idealize.ShloMosaic.TcCoe Idealize.ShloMosaic.ValueIdx

/-! ## One matrix product of the body, at an entry -/

theorem lhs_0 (i : S256x4096.Idx) (q : dot_S256x1024_S1024x4096_S256x4096_1_0_0_1_n_n.contr.Idx) : (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_1 (i : S256x4096.Idx) (q : dot_S256x1024_S1024x4096_S256x4096_1_0_0_1_n_n.contr.Idx) : (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_0 (i : S256x4096.Idx) (q : dot_S256x1024_S1024x4096_S256x4096_1_0_0_1_n_n.contr.Idx) : (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_1 (i : S256x4096.Idx) (q : dot_S256x1024_S1024x4096_S256x4096_1_0_0_1_n_n.contr.Idx) : (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A tile's product with a weight block into the zero accumulator: the sum over the contracted feature. -/
theorem product_apply (l : FVec Ideal S256x1024 .bf16) (r : FVec Ideal S1024x4096 .bf16) (p : Fin 256) (n : Fin 4096) :
    matmul dot_S256x1024_S1024x4096_S256x4096_1_0_0_1_n_n none l r (constant S256x4096 .f32 0x00000000#32) (ix2 p n) = ∑ k : Fin 1024, l (ix2 p k) * r (ix2 k n) := by
  show FloatOps.matmul dot_S256x1024_S1024x4096_S256x4096_1_0_0_1_n_n none l r (constant S256x4096 .f32 0x00000000#32) (ix2 p n) = _
  rw [Ideal.matmul_constant_zero_apply, ← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p n) ((ValueIdx.contrEquiv1 dot_S256x1024_S1024x4096_S256x4096_1_0_0_1_n_n 1024 rfl rfl).symm k) = ix2 p k := funext fun a => Fin.ext (by
    match a with
    | ⟨0, _⟩ => exact lhs_0 _ _
    | ⟨1, _⟩ => exact (lhs_1 _ _).trans hk)
  have er : dot_S256x1024_S1024x4096_S256x4096_1_0_0_1_n_n.rhsIdx (ix2 p n) ((ValueIdx.contrEquiv1 dot_S256x1024_S1024x4096_S256x4096_1_0_0_1_n_n 1024 rfl rfl).symm k) = ix2 k n := funext fun a => Fin.ext (by
    match a with
    | ⟨0, _⟩ => exact (rhs_0 _ _).trans hk
    | ⟨1, _⟩ => exact rhs_1 _ _)
  rw [el, er]

/-! ## The layout operations of the body, at an entry -/

/-- The bias row repeated down the tile's rows. -/
theorem biasRow_apply (v : FVec Ideal S1x4096 .f32) (p : Fin 256) (n : Fin 4096) :
    broadcastTo S256x4096 v broadcasts_S1x4096_S256x4096 (ix2 p n) = v (ix2 0 n) :=
  broadcastTo_apply v broadcasts_S1x4096_S256x4096 (ix2 p n) (ix2 0 n) (fun a => match a with
    | ⟨0, _⟩ => by show 0 = if (1 : Nat) = 1 then 0 else p.val; rw [if_pos rfl]
    | ⟨1, _⟩ => by show n.val = if (4096 : Nat) = 1 then 0 else n.val; rw [if_neg (by decide)])

/-- The column slice at offset `1024·g` reads gate `g`'s unit of the feature. -/
theorem slice_apply (g : Fin 4) (o : Nat) (ho : o = 1024 * g.val) (v : FVec Ideal S256x4096 .f32) (h : S256x4096.Slices ![0, o] S256x1024)
    (p : Fin 256) (q : Fin 1024) : extractStridedSlice S256x1024 ![0, o] v h (ix2 p q) = v (ix2 p (unit g q)) :=
  extractStridedSlice_apply ![0, o] v h (ix2 p q) (ix2 p (unit g q)) (fun a => match a with
    | ⟨0, _⟩ => by show p.val = 0 + p.val; omega
    | ⟨1, _⟩ => by show 1024 * g.val + q.val = o + q.val; omega)

/-! ## The three payloads -/

variable (X0 X1 X2 : FVec Ideal S256x1024 .f32) (X3 X4 : FVec Ideal S1024x4096 .bf16) (X5 : FVec Ideal S1x4096 .f32)
  (x h cp Wx Wh : Mat) (bx bh : GVec) (b : Fin 256 → Fin 4096)
  (h0 : ∀ p k, X0 (ix2 p k) = x (ix2 (b p) k)) (h1 : ∀ p k, X1 (ix2 p k) = h (ix2 (b p) k))
  (h2 : ∀ p q, X2 (ix2 p q) = cp (ix2 (b p) q))
  (h3 : ∀ k n, X3 (ix2 k n) = Wx (ix2 n k)) (h4 : ∀ k n, X4 (ix2 k n) = Wh (ix2 n k))
  (h5 : ∀ n, X5 (ix2 0 n) = bx (ix1 n) + bh (ix1 n))

include h0 h1 h3 h4 h5 in
/-- The first payload: the pre-activations of the tile's rows. -/
theorem pre_apply (p : Fin 256) (n : Fin 4096) : k0_pay1 (F := Ideal) X0 X1 X3 X4 X5 (ix2 p n) = pre x h Wx Wh bx bh (b p) n := by
  unfold k0_pay1
  show (matmul dot_S256x1024_S1024x4096_S256x4096_1_0_0_1_n_n none (truncf .bf16 X0 bitsLt_bf16_f32) (shapeCast S1024x4096 X3 shapeCasts_S1024x4096_S1024x4096) (constant S256x4096 .f32 0x00000000#32) (ix2 p n)
      + matmul dot_S256x1024_S1024x4096_S256x4096_1_0_0_1_n_n none (truncf .bf16 X1 bitsLt_bf16_f32) (shapeCast S1024x4096 X4 shapeCasts_S1024x4096_S1024x4096) (constant S256x4096 .f32 0x00000000#32) (ix2 p n))
      + broadcastTo S256x4096 (shapeCast S1x4096 X5 shapeCasts_S1x4096_S1x4096) broadcasts_S1x4096_S256x4096 (ix2 p n) = _
  rw [shapeCast_self, shapeCast_self, shapeCast_self, product_apply, product_apply, biasRow_apply, h5]
  unfold pre dots
  congr 2
  · exact Finset.sum_congr rfl fun k _ => by rw [← h0 p k, ← h3 k n]; rfl
  · exact Finset.sum_congr rfl fun k _ => by rw [← h1 p k, ← h4 k n]; rfl

include h0 h1 h2 h3 h4 h5 in
/-- The second payload: the new cell state of the tile's rows. -/
theorem cell_apply (p : Fin 256) (q : Fin 1024) : k0_pay2 (F := Ideal) X0 X1 X3 X4 X5 X2 (ix2 p q) = cell x h cp Wx Wh bx bh (b p) q := by
  unfold k0_pay2
  show Ideal.logistic (extractStridedSlice S256x1024 ![0, 1024] (k0_pay1 (F := Ideal) X0 X1 X3 X4 X5) slices_S256x4096_o0_1024_S256x1024 (ix2 p q)) * X2 (ix2 p q)
      + Ideal.logistic (extractStridedSlice S256x1024 ![0, 0] (k0_pay1 (F := Ideal) X0 X1 X3 X4 X5) slices_S256x4096_o0_0_S256x1024 (ix2 p q))
        * Ideal.tanh (extractStridedSlice S256x1024 ![0, 2048] (k0_pay1 (F := Ideal) X0 X1 X3 X4 X5) slices_S256x4096_o0_2048_S256x1024 (ix2 p q)) = _
  rw [slice_apply 1 1024 rfl, slice_apply 0 0 rfl, slice_apply 2 2048 rfl,
    pre_apply X0 X1 X3 X4 X5 x h Wx Wh bx bh b h0 h1 h3 h4 h5, pre_apply X0 X1 X3 X4 X5 x h Wx Wh bx bh b h0 h1 h3 h4 h5,
    pre_apply X0 X1 X3 X4 X5 x h Wx Wh bx bh b h0 h1 h3 h4 h5, h2]
  rfl

include h0 h1 h2 h3 h4 h5 in
/-- The third payload: the new hidden state of the tile's rows. -/
theorem hidden_apply (p : Fin 256) (q : Fin 1024) : k0_pay3 (F := Ideal) X0 X1 X3 X4 X5 X2 (ix2 p q) = hidden x h cp Wx Wh bx bh (b p) q := by
  unfold k0_pay3
  show Ideal.logistic (extractStridedSlice S256x1024 ![0, 3072] (k0_pay1 (F := Ideal) X0 X1 X3 X4 X5) slices_S256x4096_o0_3072_S256x1024 (ix2 p q))
      * Ideal.tanh (k0_pay2 (F := Ideal) X0 X1 X3 X4 X5 X2 (ix2 p q)) = _
  rw [slice_apply 3 3072 rfl, pre_apply X0 X1 X3 X4 X5 x h Wx Wh bx bh b h0 h1 h3 h4 h5,
    cell_apply X0 X1 X2 X3 X4 X5 x h cp Wx Wh bx bh b h0 h1 h2 h3 h4 h5]
  rfl

end Cert.KernelIdeal.Tile

end
-- ==== Proof.KernelIdealValue.lean ====
/-
  The two results of the idealized kernel's run, as the specification's arrays.

  Output tile `t` covers batch rows `256·t … 256·t + 255` and all 1024 features; the three batch-tiled input windows
  move with it, row `p` of their block at point `t` being row `256·t + p` of their array, and the three resident windows
  stay on their one whole block. So what point `t` writes back is block `t` of the specification's array of the argument
  arrays (the tile lemmas, at `b p = 256·t + p`), every batch row lies in the tile of its quotient by 256, and the final
  arrays are the specification's new hidden and new cell state whole.
-/
import proofs.«121273_j35725537968252_1_alg».proof.Proof.KernelIdealHost
import proofs.«121273_j35725537968252_1_alg».proof.Proof.KernelIdealTile

set_option maxRecDepth 16384

noncomputable section

namespace Cert.KernelIdeal.Region

open Cert.KernelIdeal Cert.KernelIdeal.Gen Cert.LstmSpec
open Idealize.ShloMosaic Idealize.ShloMosaic.TcCoe Idealize.ShloMosaic.ValueIdx
open Idealize.SL.Sem
open Idealize.ShloMosaic.Pipeline (Dat)

variable (mi : (ℓ : Loc nD τ sig) → Buf (Elt Ideal) ℓ) (ρ : Dev nD → PrngReg)

theorem hz : (![0, 0] : Fin 2 → Nat) = fun _ => 0 := funext fun a => by fin_cases a <;> rfl

/-! ## Where each window's block sits -/

/-- The printed index maps, decided over the grid: the five batch-tiled windows are on block `(t, 0)` at point `t`, the
    three resident ones on block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The batch row that row `p` of tile `t` is. -/
def row (t : Fin cfg0.N) (p : Fin 256) : Fin 4096 :=
  ⟨256 * t.val + p.val, by have ht : t.val < 16 := lt_of_lt_of_eq t.isLt N_0; have := p.isLt; omega⟩

/-- The input tile at point `t`: row `p` is batch row `256·t + p` of the launched input. -/
theorem blk0 (c : Dev nD) (t : Fin cfg0.N) (p : Fin 256) (k : Fin 1024) :
    (iblk mi c 0 t : S256x1024.Idx → EReal) (ix2 p k) = (mi ((c : Thread nD τ).loc main_arg0)) (ix2 (row t p) k) := by
  rw [← V_kept mi c main_arg0 (by decide)]
  show V mi c main_arg0 (((cfg0.win 0).blk t).view.emb (ix2 p k)) = V mi c main_arg0 (ix2 (row t p) k)
  obtain ⟨e00, e01, -⟩ := idx_facts t
  refine congrArg _ (funext fun a => Fin.ext ?_)
  match a with
  | ⟨0, _⟩ => show win0_0.index t (0 : Fin 2) * 256 + 1 * p.val = 256 * t.val + p.val; omega
  | ⟨1, _⟩ => show win0_0.index t (1 : Fin 2) * 1024 + 1 * k.val = k.val; omega

/-- The previous hidden state's tile. -/
theorem blk1 (c : Dev nD) (t : Fin cfg0.N) (p : Fin 256) (k : Fin 1024) :
    (iblk mi c 1 t : S256x1024.Idx → EReal) (ix2 p k) = (mi ((c : Thread nD τ).loc main_arg1)) (ix2 (row t p) k) := by
  rw [← V_kept mi c main_arg1 (by decide)]
  show V mi c main_arg1 (((cfg0.win 1).blk t).view.emb (ix2 p k)) = V mi c main_arg1 (ix2 (row t p) k)
  obtain ⟨-, -, e10, e11, -⟩ := idx_facts t
  refine congrArg _ (funext fun a => Fin.ext ?_)
  match a with
  | ⟨0, _⟩ => show win0_1.index t (0 : Fin 2) * 256 + 1 * p.val = 256 * t.val + p.val; omega
  | ⟨1, _⟩ => show win0_1.index t (1 : Fin 2) * 1024 + 1 * k.val = k.val; omega

/-- The previous cell state's tile. -/
theorem blk2 (c : Dev nD) (t : Fin cfg0.N) (p : Fin 256) (k : Fin 1024) :
    (iblk mi c 2 t : S256x1024.Idx → EReal) (ix2 p k) = (mi ((c : Thread nD τ).loc main_arg2)) (ix2 (row t p) k) := by
  rw [← V_kept mi c main_arg2 (by decide)]
  show V mi c main_arg2 (((cfg0.win 2).blk t).view.emb (ix2 p k)) = V mi c main_arg2 (ix2 (row t p) k)
  obtain ⟨-, -, -, -, e20, e21, -⟩ := idx_facts t
  refine congrArg _ (funext fun a => Fin.ext ?_)
  match a with
  | ⟨0, _⟩ => show win0_2.index t (0 : Fin 2) * 256 + 1 * p.val = 256 * t.val + p.val; omega
  | ⟨1, _⟩ => show win0_2.index t (1 : Fin 2) * 1024 + 1 * k.val = k.val; omega

/-- The input-side weight operand's one block is the whole operand: the stacked weights transposed. -/
theorem blk3 (c : Dev nD) (t : Fin cfg0.N) (k : Fin 1024) (n : Fin 4096) :
    (iblk mi c 3 t : S1024x4096.Idx → EReal) (ix2 k n) = stackWx mi c (ix2 n k) := by
  rw [← wx_apply mi c k n]
  show V mi c main_v7 (((cfg0.win 3).blk t).view.emb (ix2 k n)) = V mi c main_v7 (ix2 k n)
  obtain ⟨-, -, -, -, -, -, e30, e31, -⟩ := idx_facts t
  refine congrArg _ (funext fun a => Fin.ext ?_)
  match a with
  | ⟨0, _⟩ => show win0_3.index t (0 : Fin 2) * 1024 + 1 * k.val = k.val; omega
  | ⟨1, _⟩ => show win0_3.index t (1 : Fin 2) * 4096 + 1 * n.val = n.val; omega

/-- The hidden-side weight operand's one block. -/
theorem blk4 (c : Dev nD) (t : Fin cfg0.N) (k : Fin 1024) (n : Fin 4096) :
    (iblk mi c 4 t : S1024x4096.Idx → EReal) (ix2 k n) = stackWh mi c (ix2 n k) := by
  rw [← wh_apply mi c k n]
  show V mi c main_v9 (((cfg0.win 4).blk t).view.emb (ix2 k n)) = V mi c main_v9 (ix2 k n)
  obtain ⟨-, -, -, -, -, -, -, -, e40, e41, -⟩ := idx_facts t
  refine congrArg _ (funext fun a => Fin.ext ?_)
  match a with
  | ⟨0, _⟩ => show win0_4.index t (0 : Fin 2) * 1024 + 1 * k.val = k.val; omega
  | ⟨1, _⟩ => show win0_4.index t (1 : Fin 2) * 4096 + 1 * n.val = n.val; omega

/-- The bias operand's one block: the two stacked biases' sum. -/
theorem blk5 (c : Dev nD) (t : Fin cfg0.N) (n : Fin 4096) :
    (iblk mi c 5 t : S1x4096.Idx → EReal) (ix2 0 n) = stackBx mi c (ix1 n) + stackBh mi c (ix1 n) := by
  rw [← bias_apply mi c n]
  show V mi c main_v5 (((cfg0.win 5).blk t).view.emb (ix2 0 n)) = V mi c main_v5 (ix2 0 n)
  obtain ⟨-, -, -, -, -, -, -, -, -, -, e50, e51, -⟩ := idx_facts t
  refine congrArg _ (funext fun a => Fin.ext ?_)
  match a with
  | ⟨0, _⟩ => show win0_5.index t (0 : Fin 2) * 1 + 1 * 0 = 0; omega
  | ⟨1, _⟩ => show win0_5.index t (1 : Fin 2) * 4096 + 1 * n.val = n.val; omega

/-! ## What each point writes back -/

/-- Point `t` writes back block `t` of the specification's new hidden state. -/
theorem flushedH_eq (c : Dev nD) (t : Fin cfg0.N) :
    (dats mi 0 c).flushed 6 t = ((cfg0.win 6).blk t).view.read (Elt Ideal) (hiddenArr (mi ((c : Thread nD τ).loc main_arg0)) (mi ((c : Thread nD τ).loc main_arg1)) (mi ((c : Thread nD τ).loc main_arg2)) (stackWx mi c) (stackWh mi c) (stackBx mi c) (stackBh mi c)) := by
  show (cfg0.win 6).cut (grid0.coords t) ((dats mi 0 c).after 6 t) = _
  rw [after0_6]
  unfold outH
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  refine (Tile.hidden_apply (iblk mi c 0 t) (iblk mi c 1 t) (iblk mi c 2 t) (iblk mi c 3 t) (iblk mi c 4 t) (iblk mi c 5 t)
    (mi ((c : Thread nD τ).loc main_arg0)) (mi ((c : Thread nD τ).loc main_arg1)) (mi ((c : Thread nD τ).loc main_arg2)) (stackWx mi c) (stackWh mi c) (stackBx mi c) (stackBh mi c) (row t)
    (blk0 mi c t) (blk1 mi c t) (blk2 mi c t) (blk3 mi c t) (blk4 mi c t) (blk5 mi c t) p q).trans ?_
  obtain ⟨-, -, -, -, -, -, -, -, -, -, -, -, e60, e61, -⟩ := idx_facts t
  show hidden _ _ _ _ _ _ _ (row t p) q = hidden _ _ _ _ _ _ _ ((((cfg0.win 6).blk t).view.emb (ix2 p q)) 0) ((((cfg0.win 6).blk t).view.emb (ix2 p q)) 1)
  congr 1
  · exact Fin.ext (by show 256 * t.val + p.val = win0_6.index t (0 : Fin 2) * 256 + 1 * p.val; omega)
  · exact Fin.ext (by show q.val = win0_6.index t (1 : Fin 2) * 1024 + 1 * q.val; omega)

/-- Point `t` writes back block `t` of the specification's new cell state. -/
theorem flushedC_eq (c : Dev nD) (t : Fin cfg0.N) :
    (dats mi 0 c).flushed 7 t = ((cfg0.win 7).blk t).view.read (Elt Ideal) (cellArr (mi ((c : Thread nD τ).loc main_arg0)) (mi ((c : Thread nD τ).loc main_arg1)) (mi ((c : Thread nD τ).loc main_arg2)) (stackWx mi c) (stackWh mi c) (stackBx mi c) (stackBh mi c)) := by
  show (cfg0.win 7).cut (grid0.coords t) ((dats mi 0 c).after 7 t) = _
  rw [after0_7]
  unfold outC
  rw [View.canon_unit_zero hz]
  simp only [View.ld_unit_zero (S := S256x1024) hz, View.ld_unit_zero (S := S1024x4096) hz, View.ld_unit_zero (S := S1x4096) hz]
  funext j
  obtain ⟨p, q, rfl⟩ : ∃ (p : Fin 256) (q : Fin 1024), j = ix2 p q := ⟨j 0, j 1, eq_ix2 j⟩
  refine (Tile.cell_apply (iblk mi c 0 t) (iblk mi c 1 t) (iblk mi c 2 t) (iblk mi c 3 t) (iblk mi c 4 t) (iblk mi c 5 t)
    (mi ((c : Thread nD τ).loc main_arg0)) (mi ((c : Thread nD τ).loc main_arg1)) (mi ((c : Thread nD τ).loc main_arg2)) (stackWx mi c) (stackWh mi c) (stackBx mi c) (stackBh mi c) (row t)
    (blk0 mi c t) (blk1 mi c t) (blk2 mi c t) (blk3 mi c t) (blk4 mi c t) (blk5 mi c t) p q).trans ?_
  obtain ⟨-, -, -, -, -, -, -, -, -, -, -, -, -, -, e70, e71⟩ := idx_facts t
  show cell _ _ _ _ _ _ _ (row t p) q = cell _ _ _ _ _ _ _ ((((cfg0.win 7).blk t).view.emb (ix2 p q)) 0) ((((cfg0.win 7).blk t).view.emb (ix2 p q)) 1)
  congr 1
  · exact Fin.ext (by show 256 * t.val + p.val = win0_7.index t (0 : Fin 2) * 256 + 1 * p.val; omega)
  · exact Fin.ext (by show q.val = win0_7.index t (1 : Fin 2) * 1024 + 1 * q.val; omega)

/-! ## Every batch row lies in a tile -/

theorem mem_blkH (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10_0).slice (win0_6.rect t)).set ↔ _
  rw [View.set_slice_whole, Rect.mem_set_unit]
  exact Iff.rfl

theorem mem_blkC (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v10_1).slice (win0_7.rect t)).set ↔ _
  rw [View.set_slice_whole, Rect.mem_set_unit]
  exact Iff.rfl

/-- The tile of an entry's batch row. -/
def tileOf (i : S4096x1024.Idx) : Fin cfg0.N :=
  ⟨(i 0).val / 256, by have h0 : (i 0).val < 4096 := (i 0).isLt; exact lt_of_lt_of_eq (by omega : (i 0).val / 256 < 16) N_0.symm⟩

theorem coverH (i : S4096x1024.Idx) : ∃ t : Fin cfg0.N, (cfg0.win 6).flush t = true ∧ i ∈ ((cfg0.win 6).blk t).view.set := by
  refine ⟨tileOf i, flush0_6 _, ?_⟩
  rw [mem_blkH]
  obtain ⟨-, -, -, -, -, -, -, -, -, -, -, -, e60, e61, -⟩ := idx_facts (tileOf i)
  have h0 : (i 0).val < 4096 := (i 0).isLt
  have h1 : (i 1).val < 1024 := (i 1).isLt
  have ht : (tileOf i).val = (i 0).val / 256 := rfl
  intro a
  match a with
  | ⟨0, _⟩ => show win0_6.index (tileOf i) (0 : Fin 2) * 256 ≤ (i 0).val ∧ (i 0).val < win0_6.index (tileOf i) (0 : Fin 2) * 256 + 256; omega
  | ⟨1, _⟩ => show win0_6.index (tileOf i) (1 : Fin 2) * 1024 ≤ (i 1).val ∧ (i 1).val < win0_6.index (tileOf i) (1 : Fin 2) * 1024 + 1024; omega

theorem coverC (i : S4096x1024.Idx) : ∃ t : Fin cfg0.N, (cfg0.win 7).flush t = true ∧ i ∈ ((cfg0.win 7).blk t).view.set := by
  refine ⟨tileOf i, flush0_7 _, ?_⟩
  rw [mem_blkC]
  obtain ⟨-, -, -, -, -, -, -, -, -, -, -, -, -, -, e70, e71⟩ := idx_facts (tileOf i)
  have h0 : (i 0).val < 4096 := (i 0).isLt
  have h1 : (i 1).val < 1024 := (i 1).isLt
  have ht : (tileOf i).val = (i 0).val / 256 := rfl
  intro a
  match a with
  | ⟨0, _⟩ => show win0_7.index (tileOf i) (0 : Fin 2) * 256 ≤ (i 0).val ∧ (i 0).val < win0_7.index (tileOf i) (0 : Fin 2) * 256 + 256; omega
  | ⟨1, _⟩ => show win0_7.index (tileOf i) (1 : Fin 2) * 1024 ≤ (i 1).val ∧ (i 1).val < win0_7.index (tileOf i) (1 : Fin 2) * 1024 + 1024; omega

/-! ## The final arrays and the run -/

theorem finalH (c : Dev nD) : (dats mi 0 c).arrAt 6 cfg0.N = hiddenArr (mi ((c : Thread nD τ).loc main_arg0)) (mi ((c : Thread nD τ).loc main_arg1)) (mi ((c : Thread nD τ).loc main_arg2)) (stackWx mi c) (stackWh mi c) (stackBx mi c) (stackBh mi c) :=
  (dats mi 0 c).arrAt_eq_of_cover 6 _ (fun t _ => flushedH_eq mi c t) coverH

theorem finalC (c : Dev nD) : (dats mi 0 c).arrAt 7 cfg0.N = cellArr (mi ((c : Thread nD τ).loc main_arg0)) (mi ((c : Thread nD τ).loc main_arg1)) (mi ((c : Thread nD τ).loc main_arg2)) (stackWx mi c) (stackWh mi c) (stackBx mi c) (stackBh mi c) :=
  (dats mi 0 c).arrAt_eq_of_cover 7 _ (fun t _ => flushedC_eq mi c t) coverC

/-- The idealized kernel's run: every weakly fair execution ends with the first result at the specification's new
    hidden state, the second at its new cell state, and the nineteen arguments unchanged. -/
theorem run_value : θ_run defs (onTc (τ := τ) (main (F := Ideal))) ⟨mi, fun _ => 0, ρ⟩ fun r => ∀ c : Dev nD,
      r.2.mem ((c.tc : Thread nD τ).loc main_v10_0) = hiddenArr (mi ((c : Thread nD τ).loc main_arg0)) (mi ((c : Thread nD τ).loc main_arg1)) (mi ((c : Thread nD τ).loc main_arg2)) (stackWx mi c) (stackWh mi c) (stackBx mi c) (stackBh mi c)
      ∧ r.2.mem ((c.tc : Thread nD τ).loc main_v10_1) = cellArr (mi ((c : Thread nD τ).loc main_arg0)) (mi ((c : Thread nD τ).loc main_arg1)) (mi ((c : Thread nD τ).loc main_arg2)) (stackWx mi c) (stackWh mi c) (stackBx mi c) (stackBh mi c)
      ∧ r.2.mem ((c.tc : Thread nD τ).loc main_arg0) = mi ((c.tc : Thread nD τ).loc main_arg0)
      ∧ r.2.mem ((c.tc : Thread nD τ).loc main_arg1) = mi ((c.tc : Thread nD τ).loc main_arg1)
      ∧ r.2.mem ((c.tc : Thread nD τ).loc main_arg2) = mi ((c.tc : Thread nD τ).loc main_arg2)
      ∧ r.2.mem ((c.tc : Thread nD τ).loc main_arg3) = mi ((c.tc : Thread nD τ).loc main_arg3)
      ∧ r.2.mem ((c.tc : Thread nD τ).loc main_arg4) = mi ((c.tc : Thread nD τ).loc main_arg4)
      ∧ r.2.mem ((c.tc : Thread nD τ).loc main_arg5) = mi ((c.tc : Thread nD τ).loc main_arg5)
      ∧ r.2.mem ((c.tc : Thread nD τ).loc main_arg6) = mi ((c.tc : Thread nD τ).loc main_arg6)
      ∧ r.2.mem ((c.tc : Thread nD τ).loc main_arg7) = mi ((c.tc : Thread nD τ).loc main_arg7)
      ∧ r.2.mem ((c.tc : Thread nD τ).loc main_arg8) = mi ((c.tc : Thread nD τ).loc main_arg8)
      ∧ r.2.mem ((c.tc : Thread nD τ).loc main_arg9) = mi ((c.tc : Thread nD τ).loc main_arg9)
      ∧ r.2.mem ((c.tc : Thread nD τ).loc main_arg10) = mi ((c.tc : Thread nD τ).loc main_arg10)
      ∧ r.2.mem ((c.tc : Thread nD τ).loc main_arg11) = mi ((c.tc : Thread nD τ).loc main_arg11)
      ∧ r.2.mem ((c.tc : Thread nD τ).loc main_arg12) = mi ((c.tc : Thread nD τ).loc main_arg12)
      ∧ r.2.mem ((c.tc : Thread nD τ).loc main_arg13) = mi ((c.tc : Thread nD τ).loc main_arg13)
      ∧ r.2.mem ((c.tc : Thread nD τ).loc main_arg14) = mi ((c.tc : Thread nD τ).loc main_arg14)
      ∧ r.2.mem ((c.tc : Thread nD τ).loc main_arg15) = mi ((c.tc : Thread nD τ).loc main_arg15)
      ∧ r.2.mem ((c.tc : Thread nD τ).loc main_arg16) = mi ((c.tc : Thread nD τ).loc main_arg16)
      ∧ r.2.mem ((c.tc : Thread nD τ).loc main_arg17) = mi ((c.tc : Thread nD τ).loc main_arg17)
      ∧ r.2.mem ((c.tc : Thread nD τ).loc main_arg18) = mi ((c.tc : Thread nD τ).loc main_arg18) :=
  (θ_run defs _ _).mono (fun r h c => ⟨((h c).1 6).trans (finalH mi c), ((h c).1 7).trans (finalC mi c),
      kept_staged mi (h) c 0 rfl (by decide),
      kept_staged mi (h) c 1 rfl (by decide),
      kept_staged mi (h) c 2 rfl (by decide),
      kept_rest mi (h) c main_arg3 rfl (by decide) (by decide),
      kept_rest mi (h) c main_arg4 rfl (by decide) (by decide),
      kept_rest mi (h) c main_arg5 rfl (by decide) (by decide),
      kept_rest mi (h) c main_arg6 rfl (by decide) (by decide),
      kept_rest mi (h) c main_arg7 rfl (by decide) (by decide),
      kept_rest mi (h) c main_arg8 rfl (by decide) (by decide),
      kept_rest mi (h) c main_arg9 rfl (by decide) (by decide),
      kept_rest mi (h) c main_arg10 rfl (by decide) (by decide),
      kept_rest mi (h) c main_arg11 rfl (by decide) (by decide),
      kept_rest mi (h) c main_arg12 rfl (by decide) (by decide),
      kept_rest mi (h) c main_arg13 rfl (by decide) (by decide),
      kept_rest mi (h) c main_arg14 rfl (by decide) (by decide),
      kept_rest mi (h) c main_arg15 rfl (by decide) (by decide),
      kept_rest mi (h) c main_arg16 rfl (by decide) (by decide),
      kept_rest mi (h) c main_arg17 rfl (by decide) (by decide),
      kept_rest mi (h) c main_arg18 rfl (by decide) (by decide)⟩)
    (run_main mi ρ)

end Cert.KernelIdeal.Region

end
-- ==== Proof.ReferenceLstm.lean ====
/-
  The reference computes the LSTM step of the specification.

  Read one operation at a time, the reference's 4096×4096 array of gate pre-activations has at `(b, n)` the sum over
  `k` of `x[b,k]` times the transposed stacked weights at `(k, n)` — the stacked weights at `(n, k)` —, the same for the
  hidden state, then the first stacked bias at `n`, then the second: the specification's `pre b n` with the biases added
  one after the other (`gates_apply`). Its four column slices at offsets 0, 1024, 2048, 3072 are the four gates' units of
  a feature, the quotient `1 / (1 + e^(-y))` it spells for each sigmoid is the logistic function, and the rest is the
  specification's `cell` and `hidden` read entry by entry. The four stacked arrays are never opened.
-/
import proofs.«121273_j35725537968252_1_alg».proof.Proof.Gen.ReferenceIdeal.Read
import proofs.«121273_j35725537968252_1_alg».proof.Proof.LstmSpec
import Idealize.ShloMosaic.PureOps.IdealRules

noncomputable section

namespace Cert.ReferenceIdeal.RefValue

open Cert.ReferenceIdeal Cert.ReferenceIdeal.Gen Cert.ReferenceIdeal.Read Cert.LstmSpec
open Idealize.ShloMosaic Idealize.ShloMosaic.TcCoe Idealize.ShloMosaic.ValueIdx Idealize.SL.Sem

/-- The pattern of the float `1.0` denotes the real `1`. -/
theorem one_f32 : Ideal.ofBits .f32 0x3F800000#32 = 1 := IdealRules.sign_bit.ideal_onePat .f32

/-! ## The composed index functions, in coordinates -/

theorem lidx5 (i : S4096x4096.Idx) (k : Fin 1024) : lidx_main_v5 i k = ix2 (i 0) k :=
  funext fun a => by match a with | ⟨0, _⟩ => rfl | ⟨1, _⟩ => rfl
theorem ridx5 (i : S4096x4096.Idx) (k : Fin 1024) : idx_main_v4 (ridx_main_v5 i k) = ix2 (i 1) k :=
  funext fun a => by match a with | ⟨0, _⟩ => rfl | ⟨1, _⟩ => rfl
theorem lidx7 (i : S4096x4096.Idx) (k : Fin 1024) : lidx_main_v7 i k = ix2 (i 0) k :=
  funext fun a => by match a with | ⟨0, _⟩ => rfl | ⟨1, _⟩ => rfl
theorem ridx7 (i : S4096x4096.Idx) (k : Fin 1024) : idx_main_v6 (ridx_main_v7 i k) = ix2 (i 1) k :=
  funext fun a => by match a with | ⟨0, _⟩ => rfl | ⟨1, _⟩ => rfl
theorem bidx2 (i : S4096x4096.Idx) : idx_main_v9 (idx_main_v10 i) = ix1 (i 1) :=
  funext fun a => by match a with | ⟨0, _⟩ => rfl
theorem bidx3 (i : S4096x4096.Idx) : idx_main_v12 (idx_main_v13 i) = ix1 (i 1) :=
  funext fun a => by match a with | ⟨0, _⟩ => rfl

/-- The column slice at offset `1024·g` reads gate `g`'s unit of the feature. -/
theorem slice0 (j : S4096x1024.Idx) : idx_main_v15 j 1 = unit 0 (j 1) := Fin.ext (by show (j 1).val = 1024 * 0 + (j 1).val; omega)
theorem slice1 (j : S4096x1024.Idx) : idx_main_v16 j 1 = unit 1 (j 1) := Fin.ext (by show 1024 + (j 1).val = 1024 * 1 + (j 1).val; omega)
theorem slice2 (j : S4096x1024.Idx) : idx_main_v17 j 1 = unit 2 (j 1) := Fin.ext (by show 2048 + (j 1).val = 1024 * 2 + (j 1).val; omega)
theorem slice3 (j : S4096x1024.Idx) : idx_main_v18 j 1 = unit 3 (j 1) := Fin.ext (by show 3072 + (j 1).val = 1024 * 3 + (j 1).val; omega)

variable (x0 x1 x2 : (⟨S4096x1024, .f32⟩ : BufTy).Contents (Elt Ideal))
  (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) (x15 : (⟨S1024x1024, .f32⟩ : BufTy).Contents (Elt Ideal)) (x16 : (⟨S1024, .f32⟩ : BufTy).Contents (Elt Ideal)) (x17 : (⟨S1024x1024, .f32⟩ : BufTy).Contents (Elt Ideal)) (x18 : (⟨S1024, .f32⟩ : BufTy).Contents (Elt Ideal))

/-! ## The gate pre-activations -/

/-- The reference's array of pre-activations, at an index. -/
theorem gates_apply (i : S4096x4096.Idx) :
    val_main_v14 (F := Ideal) x0 x1 x3 x4 x5 x6 x7 x8 x9 x10 x11 x12 x13 x14 x15 x16 x17 x18 i = pre x0 x1 (val_main_v0 (F := Ideal) x3 x7 x11 x15) (val_main_v1 (F := Ideal) x5 x9 x13 x17) (val_main_v2 (F := Ideal) x4 x8 x12 x16) (val_main_v3 (F := Ideal) x6 x10 x14 x18) (i 0) (i 1) := by
  rw [val_main_v14_apply, val_main_v11_apply, val_main_v8_apply, val_main_v5_apply, val_main_v7_apply,
    val_main_v10_apply, val_main_v9_apply, val_main_v13_apply, val_main_v12_apply]
  simp only [val_main_v4_apply, val_main_v6_apply, Ideal.addf_def, lidx5, ridx5, lidx7, ridx7, bidx2, bidx3]
  exact pre_eq_seq _ _ _ _ _ _ _ _

/-! ## The four gates -/

/-- The input gate: the reference's quotient `1 / (1 + e^(-y))` over the first column slice. -/
theorem gate_i (j : S4096x1024.Idx) :
    val_main_v24 (F := Ideal) x0 x1 x3 x4 x5 x6 x7 x8 x9 x10 x11 x12 x13 x14 x15 x16 x17 x18 j = Ideal.logistic (pre x0 x1 (val_main_v0 (F := Ideal) x3 x7 x11 x15) (val_main_v1 (F := Ideal) x5 x9 x13 x17) (val_main_v2 (F := Ideal) x4 x8 x12 x16) (val_main_v3 (F := Ideal) x6 x10 x14 x18) (j 0) (unit 0 (j 1))) := by
  rw [val_main_v24_apply, val_main_v23_apply, val_main_cst_0_apply, val_main_v22_apply, val_main_v21_apply, val_main_cst_apply,
    val_main_v20_apply, val_main_v19_apply, val_main_v15_apply, gates_apply, slice0]
  exact logistic_eq _ one_f32 _

/-- The forget gate, over the second slice. -/
theorem gate_f (j : S4096x1024.Idx) :
    val_main_v30 (F := Ideal) x0 x1 x3 x4 x5 x6 x7 x8 x9 x10 x11 x12 x13 x14 x15 x16 x17 x18 j = Ideal.logistic (pre x0 x1 (val_main_v0 (F := Ideal) x3 x7 x11 x15) (val_main_v1 (F := Ideal) x5 x9 x13 x17) (val_main_v2 (F := Ideal) x4 x8 x12 x16) (val_main_v3 (F := Ideal) x6 x10 x14 x18) (j 0) (unit 1 (j 1))) := by
  rw [val_main_v30_apply, val_main_v29_apply, val_main_cst_2_apply, val_main_v28_apply, val_main_v27_apply, val_main_cst_1_apply,
    val_main_v26_apply, val_main_v25_apply, val_main_v16_apply, gates_apply, slice1]
  exact logistic_eq _ one_f32 _

/-- The candidate, over the third slice. -/
theorem gate_g (j : S4096x1024.Idx) :
    val_main_v31 (F := Ideal) x0 x1 x3 x4 x5 x6 x7 x8 x9 x10 x11 x12 x13 x14 x15 x16 x17 x18 j = Ideal.tanh (pre x0 x1 (val_main_v0 (F := Ideal) x3 x7 x11 x15) (val_main_v1 (F := Ideal) x5 x9 x13 x17) (val_main_v2 (F := Ideal) x4 x8 x12 x16) (val_main_v3 (F := Ideal) x6 x10 x14 x18) (j 0) (unit 2 (j 1))) := by
  rw [val_main_v31_apply, val_main_v17_apply, gates_apply, slice2]
  rfl

/-- The output gate, over the fourth slice. -/
theorem gate_o (j : S4096x1024.Idx) :
    val_main_v37 (F := Ideal) x0 x1 x3 x4 x5 x6 x7 x8 x9 x10 x11 x12 x13 x14 x15 x16 x17 x18 j = Ideal.logistic (pre x0 x1 (val_main_v0 (F := Ideal) x3 x7 x11 x15) (val_main_v1 (F := Ideal) x5 x9 x13 x17) (val_main_v2 (F := Ideal) x4 x8 x12 x16) (val_main_v3 (F := Ideal) x6 x10 x14 x18) (j 0) (unit 3 (j 1))) := by
  rw [val_main_v37_apply, val_main_v36_apply, val_main_cst_4_apply, val_main_v35_apply, val_main_v34_apply, val_main_cst_3_apply,
    val_main_v33_apply, val_main_v32_apply, val_main_v18_apply, gates_apply, slice3]
  exact logistic_eq _ one_f32 _

/-! ## The two results -/

/-- The reference's second result is the specification's new cell state. -/
theorem ref_cell : val_main_v40 (F := Ideal) x0 x1 x2 x3 x4 x5 x6 x7 x8 x9 x10 x11 x12 x13 x14 x15 x16 x17 x18 = cellArr x0 x1 x2 (val_main_v0 (F := Ideal) x3 x7 x11 x15) (val_main_v1 (F := Ideal) x5 x9 x13 x17) (val_main_v2 (F := Ideal) x4 x8 x12 x16) (val_main_v3 (F := Ideal) x6 x10 x14 x18) := by
  funext j
  obtain ⟨b, q, rfl⟩ : ∃ (b : Fin 4096) (q : Fin 1024), j = ix2 b q := ⟨j 0, j 1, eq_ix2 j⟩
  rw [val_main_v40_apply, val_main_v38_apply, val_main_v39_apply, gate_i, gate_f, gate_g]
  rfl

/-- The reference's first result is the specification's new hidden state. -/
theorem ref_hidden : val_main_v42 (F := Ideal) x0 x1 x2 x3 x4 x5 x6 x7 x8 x9 x10 x11 x12 x13 x14 x15 x16 x17 x18 = hiddenArr x0 x1 x2 (val_main_v0 (F := Ideal) x3 x7 x11 x15) (val_main_v1 (F := Ideal) x5 x9 x13 x17) (val_main_v2 (F := Ideal) x4 x8 x12 x16) (val_main_v3 (F := Ideal) x6 x10 x14 x18) := by
  funext j
  obtain ⟨b, q, rfl⟩ : ∃ (b : Fin 4096) (q : Fin 1024), j = ix2 b q := ⟨j 0, j 1, eq_ix2 j⟩
  rw [val_main_v42_apply, val_main_v41_apply, gate_o, congrFun (ref_cell x0 x1 x2 x3 x4 x5 x6 x7 x8 x9 x10 x11 x12 x13 x14 x15 x16 x17 x18) (ix2 b q)]
  rfl

end Cert.ReferenceIdeal.RefValue

end
-- ==== Proof.lean ====
/-
  One LSTM step on a TensorCore, against its jnp reference, over the extended reals.

  The kernel tiles the 4096 batch rows in sixteen tiles of 256. For each tile it multiplies the input tile and the
  previous hidden tile by the two resident weight operands — the four input-to-gate and the four hidden-to-gate matrices
  stacked along the gate axis, transposed and narrowed to sixteen bits on the host —, adds the one bias row (the two
  stacked biases, added on the host), takes the four gates off four column slices, and writes the new cell state
  `σ(f)·c + σ(i)·tanh(g)` and the new hidden state `σ(o)·tanh(c')`. The reference multiplies the whole batch by the
  transposed stacked weights, adds the two stacked biases one after the other, and spells each sigmoid as the quotient
  `1 / (1 + e^(-y))`. Read on the extended reals, where narrowing is the identity, a product into a zero accumulator is the
  plain sum, the quotient is the logistic function and addition is associative, both compute the specification's
  `hiddenArr` and `cellArr` of the argument arrays (Proof/LstmSpec.lean) entry by entry: no finiteness of the inputs is
  used.

  Frames. Both printed kernel programs (they differ in their namespace only) run to the end, fault nowhere and leave their
  nineteen arguments as launched: the host stretch writes ten buffers of its own, the one region's body loads six blocks
  whole and stores two tiles whole at every grid point, and the pipeline library's frame run does the rest
  (Proof/KernelIdealEntry.lean, Proof/KernelIdealBody.lean, and the same two modules for the word-level program).
  The reference is a straight line of host operations.
-/
import proofs.«121273_j35725537968252_1_alg».proof.Defs
import proofs.«121273_j35725537968252_1_alg».proof.Proof.Gen.Kernel
import proofs.«121273_j35725537968252_1_alg».proof.Proof.Gen.KernelIdeal
import proofs.«121273_j35725537968252_1_alg».proof.Proof.Gen.ReferenceIdeal
import proofs.«121273_j35725537968252_1_alg».proof.Proof.Gen.Pre_finite_inputs
import proofs.«121273_j35725537968252_1_alg».proof.Proof.Gen.ReferenceIdeal.Run
import proofs.«121273_j35725537968252_1_alg».proof.Proof.Gen.ReferenceIdeal.Read
import proofs.«121273_j35725537968252_1_alg».proof.Proof.KernelBody
import proofs.«121273_j35725537968252_1_alg».proof.Proof.KernelIdealValue
import proofs.«121273_j35725537968252_1_alg».proof.Proof.ReferenceLstm
import Idealize.ShloMosaic.Adequacy
import Idealize.ShloMosaic.Init

set_option maxRecDepth 16384

noncomputable section

namespace Cert.Proof

open Idealize.ShloMosaic Idealize.SL.Sem

/-- The word-level kernel program's frame. -/
theorem frame_k : Cert.frame_Kernel := fun m ρ _ => Cert.Kernel.Region.frame m ρ

/-- The idealized kernel program's frame. -/
theorem frame_ki : Cert.frame_KernelIdeal := fun m ρ _ => Cert.KernelIdeal.Region.frame m ρ

/-- The reference's frame: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the nineteen arguments both programs end at the specification's new hidden state and
    new cell state of those arguments: the kernel by its tiles, the reference entry by entry; the stacked weight and bias
    arrays, spelt by the same concatenations in both programs, are never opened. -/
theorem algebraic : Cert.algebraic_KernelIdeal_ReferenceIdeal := by
  intro m ρ m' ρ' _ hagree
  refine ⟨_, _, Cert.KernelIdeal.Region.run_value m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v42_eq, a0, a1, a2, a3, a4, a5, a6, a7, a8, a9, a10, a11, a12, a13, a14, a15, a16, a17, a18]
    exact Cert.ReferenceIdeal.RefValue.ref_hidden _ _ _ _ _ _ _ _ _ _ _ _ _ _ _ _ _ _ _
  · obtain ⟨a0, a1, a2, a3, a4, a5, a6, a7, a8, a9, a10, a11, a12, a13, a14, a15, a16, a17, a18⟩ := hagree c
    rw [Cert.ReferenceIdeal.Read.val_main_v40_eq, a0, a1, a2, a3, a4, a5, a6, a7, a8, a9, a10, a11, a12, a13, a14, a15, a16, a17, a18]
    exact Cert.ReferenceIdeal.RefValue.ref_cell _ _ _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
